-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S2x1x1 : Shape := ⟨3, ![2, 1, 1]⟩
abbrev S512x7x7x30 : Shape := ⟨4, ![512, 7, 7, 30]⟩
abbrev S512x7x7 : Shape := ⟨3, ![512, 7, 7]⟩
abbrev S1x1x1 : Shape := ⟨3, ![1, 1, 1]⟩
abbrev S512x7x7x1 : Shape := ⟨4, ![512, 7, 7, 1]⟩
abbrev S512x7x7x4 : Shape := ⟨4, ![512, 7, 7, 4]⟩
abbrev S512x7x7x2 : Shape := ⟨4, ![512, 7, 7, 2]⟩
abbrev S512x7x7x20 : Shape := ⟨4, ![512, 7, 7, 20]⟩
abbrev S512x7 : Shape := ⟨2, ![512, 7]⟩
abbrev S512 : Shape := ⟨1, ![512]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S16384x7x7x1, .f32⟩
  | .hbm, ⟨3, _⟩ => ⟨S16384x7x7, .f32⟩
  | .hbm, ⟨4, _⟩ => ⟨S16384x7x7, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x7x7x30, .f32⟩
  | .local _ .vmem, ⟨1, _⟩ => ⟨S512x7x7x30, .f32⟩
  | .local _ .vmem, ⟨2, _⟩ => ⟨S512x7x7x30, .f32⟩
  | .local _ .vmem, ⟨3, _⟩ => ⟨S512x7x7x30, .f32⟩
  | .local _ .vmem, ⟨4, _⟩ => ⟨S512x7x7, .f32⟩
  | .local _ .vmem, ⟨5, _⟩ => ⟨S512x7x7, .f32⟩
  | .local _ .vmem, ⟨6, _⟩ => ⟨S1x1x1, .f32⟩
  | .local _ .vmem, ⟨7, _⟩ => ⟨S1x1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x7x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S16384x7x7x30_S16384x7x7x1_0_0_0_0 : S16384x7x7x30.Slices ![0, 0, 0, 0] S16384x7x7x1
  shapeCasts_S16384x7x7x1_S16384x7x7 : S16384x7x7x1.ShapeCasts S16384x7x7
  transposes_S16384x7x7_S16384x7x7_0_2_1 : S16384x7x7.Transposes [0, 2, 1] S16384x7x7
  inb_S1x1x1_S1x1x1_0_0_0 : ∀ a, (![0, 0, 0] : Fin 3 → Nat) a + S1x1x1.size a ≤ S1x1x1.size a
  h_S1x1x1 : 0 < S1x1x1.numel
  inb_S512x7x7x30_S512x7x7x30_0_0_0_0 : ∀ a, (![0, 0, 0, 0] : Fin 4 → Nat) a + S512x7x7x30.size a ≤ S512x7x7x30.size a
  h_S512x7x7x30 : 0 < S512x7x7x30.numel
  inb_S512x7x7_S512x7x7_0_0_0 : ∀ a, (![0, 0, 0] : Fin 3 → Nat) a + S512x7x7.size a ≤ S512x7x7.size a
  h_S512x7x7 : 0 < S512x7x7.numel
  shapeCasts_S512x7x7_S512x7x7 : S512x7x7.ShapeCasts S512x7x7
  slices_S512x7x7x30_o0_0_0_1_S512x7x7x1 : S512x7x7x30.Slices ![0, 0, 0, 1] S512x7x7x1
  shapeCasts_S512x7x7x1_S512x7x7 : S512x7x7x1.ShapeCasts S512x7x7
  slices_S512x7x7x30_o0_0_0_2_S512x7x7x1 : S512x7x7x30.Slices ![0, 0, 0, 2] S512x7x7x1
  slices_S512x7x7x30_o0_0_0_3_S512x7x7x1 : S512x7x7x30.Slices ![0, 0, 0, 3] S512x7x7x1
  shapeCasts_S512x7x7_S512x7x7x1 : S512x7x7.ShapeCasts S512x7x7x1
  concatenates_S512x7x7x1_S512x7x7x1_S512x7x7x1_S512x7x7x1_S512x7x7x4_d3 : Shape.Concatenates [S512x7x7x1, S512x7x7x1, S512x7x7x1, S512x7x7x1] S512x7x7x4 3
  slices_S512x7x7x30_o0_0_0_0_S512x7x7x4 : S512x7x7x30.Slices ![0, 0, 0, 0] S512x7x7x4
  slices_S512x7x7x4_o0_0_0_0_S512x7x7x2 : S512x7x7x4.Slices ![0, 0, 0, 0] S512x7x7x2
  slices_S512x7x7x4_o0_0_0_2_S512x7x7x2 : S512x7x7x4.Slices ![0, 0, 0, 2] S512x7x7x2
  slices_S512x7x7x2_o0_0_0_0_S512x7x7x1 : S512x7x7x2.Slices ![0, 0, 0, 0] S512x7x7x1
  slices_S512x7x7x2_o0_0_0_1_S512x7x7x1 : S512x7x7x2.Slices ![0, 0, 0, 1] S512x7x7x1
  slices_S512x7x7x4_o0_0_0_2_S512x7x7x1 : S512x7x7x4.Slices ![0, 0, 0, 2] S512x7x7x1
  slices_S512x7x7x4_o0_0_0_3_S512x7x7x1 : S512x7x7x4.Slices ![0, 0, 0, 3] S512x7x7x1
  slices_S512x7x7x30_o0_0_0_5_S512x7x7x4 : S512x7x7x30.Slices ![0, 0, 0, 5] S512x7x7x4
  slices_S512x7x7x30_o0_0_0_0_S512x7x7x2 : S512x7x7x30.Slices ![0, 0, 0, 0] S512x7x7x2
  reduces_S512x7x7x2_S512x7x7 : S512x7x7x2.Reduces [3] S512x7x7
  slices_S512x7x7x30_o0_0_0_2_S512x7x7x2 : S512x7x7x30.Slices ![0, 0, 0, 2] S512x7x7x2
  slices_S512x7x7x30_o0_0_0_4_S512x7x7x1 : S512x7x7x30.Slices ![0, 0, 0, 4] S512x7x7x1
  slices_S512x7x7x30_o0_0_0_9_S512x7x7x1 : S512x7x7x30.Slices ![0, 0, 0, 9] S512x7x7x1
  slices_S512x7x7x30_o0_0_0_5_S512x7x7x2 : S512x7x7x30.Slices ![0, 0, 0, 5] S512x7x7x2
  slices_S512x7x7x30_o0_0_0_7_S512x7x7x2 : S512x7x7x30.Slices ![0, 0, 0, 7] S512x7x7x2
  slices_S512x7x7x30_o0_0_0_10_S512x7x7x20 : S512x7x7x30.Slices ![0, 0, 0, 10] S512x7x7x20
  reduces_S512x7x7x20_S512x7x7 : S512x7x7x20.Reduces [3] S512x7x7
  reduces_S512x7x7_S512x7 : S512x7x7.Reduces [2] S512x7
  reduces_S512x7_S512 : S512x7.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x7x7x30.size a ≤ S16384x7x7x30.size a
  hwx0_0 : ∀ i : grid0.Coords, EltTy.bits .f32 = 32 ∨ (Rect.block (s := S16384x7x7x30) S512x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x7x7x30.size a ≤ S16384x7x7x30.size a
  hwx0_1 : ∀ i : grid0.Coords, EltTy.bits .f32 = 32 ∨ (Rect.block (s := S16384x7x7x30) S512x7x7x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x7x7.size a ≤ S16384x7x7.size a
  hwx0_2 : ∀ i : grid0.Coords, EltTy.bits .f32 = 32 ∨ (Rect.block (s := S16384x7x7) S512x7x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S512x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x7x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 211
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7x1, .f32⟩
  | 8 => ⟨S16384x7x7, .f32⟩
  | 9 => ⟨S16384x7x7, .f32⟩
  | 10 => ⟨S16384x7x7x1, .f32⟩
  | 11 => ⟨S16384x7x7, .f32⟩
  | 12 => ⟨S16384x7x7x1, .f32⟩
  | 13 => ⟨S16384x7x7, .f32⟩
  | 14 => ⟨S16384x7x7x1, .f32⟩
  | 15 => ⟨S16384x7x7, .f32⟩
  | 16 => ⟨S16384x7x7x1, .f32⟩
  | 17 => ⟨S16384x7x7x1, .f32⟩
  | 18 => ⟨S16384x7x7x1, .f32⟩
  | 19 => ⟨S16384x7x7x1, .f32⟩
  | 20 => ⟨S16384x7x7x4, .f32⟩
  | 21 => ⟨S16384x7x7x4, .f32⟩
  | 22 => ⟨S16384x7x7x2, .f32⟩
  | 23 => ⟨S16384x7x7x2, .f32⟩
  | 24 => ⟨S_, .f32⟩
  | 25 => ⟨S16384x7x7x2, .f32⟩
  | 26 => ⟨S16384x7x7x2, .f32⟩
  | 27 => ⟨S16384x7x7x2, .f32⟩
  | 28 => ⟨S16384x7x7x2, .f32⟩
  | 29 => ⟨S16384x7x7x2, .f32⟩
  | 30 => ⟨S_, .f32⟩
  | 31 => ⟨S16384x7x7x2, .f32⟩
  | 32 => ⟨S16384x7x7x2, .f32⟩
  | 33 => ⟨S16384x7x7x2, .f32⟩
  | 34 => ⟨S16384x7x7x2, .f32⟩
  | 35 => ⟨S16384x7x7x2, .f32⟩
  | 36 => ⟨S_, .f32⟩
  | 37 => ⟨S16384x7x7x2, .f32⟩
  | 38 => ⟨S16384x7x7x2, .f32⟩
  | 39 => ⟨S16384x7x7x2, .f32⟩
  | 40 => ⟨S16384x7x7x2, .f32⟩
  | 41 => ⟨S16384x7x7x2, .f32⟩
  | 42 => ⟨S_, .f32⟩
  | 43 => ⟨S16384x7x7x2, .f32⟩
  | 44 => ⟨S16384x7x7x2, .f32⟩
  | 45 => ⟨S16384x7x7x2, .f32⟩
  | 46 => ⟨S16384x7x7x2, .f32⟩
  | 47 => ⟨S16384x7x7x2, .f32⟩
  | 48 => ⟨S16384x7x7x2, .f32⟩
  | 49 => ⟨S_, .f32⟩
  | 50 => ⟨S_, .f32⟩
  | 51 => ⟨S16384x7x7x2, .f32⟩
  | 52 => ⟨S16384x7x7x2, .f32⟩
  | 53 => ⟨S16384x7x7x1, .f32⟩
  | 54 => ⟨S16384x7x7, .f32⟩
  | 55 => ⟨S16384x7x7x1, .f32⟩
  | 56 => ⟨S16384x7x7, .f32⟩
  | 57 => ⟨S16384x7x7, .f32⟩
  | 58 => ⟨S16384x7x7x1, .f32⟩
  | 59 => ⟨S16384x7x7, .f32⟩
  | 60 => ⟨S16384x7x7x1, .f32⟩
  | 61 => ⟨S16384x7x7, .f32⟩
  | 62 => ⟨S16384x7x7, .f32⟩
  | 63 => ⟨S16384x7x7x1, .f32⟩
  | 64 => ⟨S16384x7x7, .f32⟩
  | 65 => ⟨S16384x7x7x1, .f32⟩
  | 66 => ⟨S16384x7x7, .f32⟩
  | 67 => ⟨S16384x7x7, .f32⟩
  | 68 => ⟨S16384x7x7, .f32⟩
  | 69 => ⟨S16384x7x7, .f32⟩
  | 70 => ⟨S_, .f32⟩
  | 71 => ⟨S16384x7x7, .f32⟩
  | 72 => ⟨S16384x7x7, .f32⟩
  | 73 => ⟨S16384x7x7, .f32⟩
  | 74 => ⟨S16384x7x7x4, .f32⟩
  | 75 => ⟨S16384x7x7x2, .f32⟩
  | 76 => ⟨S16384x7x7x2, .f32⟩
  | 77 => ⟨S_, .f32⟩
  | 78 => ⟨S16384x7x7x2, .f32⟩
  | 79 => ⟨S16384x7x7x2, .f32⟩
  | 80 => ⟨S16384x7x7x2, .f32⟩
  | 81 => ⟨S16384x7x7x2, .f32⟩
  | 82 => ⟨S16384x7x7x2, .f32⟩
  | 83 => ⟨S_, .f32⟩
  | 84 => ⟨S16384x7x7x2, .f32⟩
  | 85 => ⟨S16384x7x7x2, .f32⟩
  | 86 => ⟨S16384x7x7x2, .f32⟩
  | 87 => ⟨S16384x7x7x2, .f32⟩
  | 88 => ⟨S16384x7x7x2, .f32⟩
  | 89 => ⟨S_, .f32⟩
  | 90 => ⟨S16384x7x7x2, .f32⟩
  | 91 => ⟨S16384x7x7x2, .f32⟩
  | 92 => ⟨S16384x7x7x2, .f32⟩
  | 93 => ⟨S16384x7x7x2, .f32⟩
  | 94 => ⟨S16384x7x7x2, .f32⟩
  | 95 => ⟨S_, .f32⟩
  | 96 => ⟨S16384x7x7x2, .f32⟩
  | 97 => ⟨S16384x7x7x2, .f32⟩
  | 98 => ⟨S16384x7x7x2, .f32⟩
  | 99 => ⟨S16384x7x7x2, .f32⟩
  | 100 => ⟨S16384x7x7x2, .f32⟩
  | 101 => ⟨S16384x7x7x2, .f32⟩
  | 102 => ⟨S_, .f32⟩
  | 103 => ⟨S_, .f32⟩
  | 104 => ⟨S16384x7x7x2, .f32⟩
  | 105 => ⟨S16384x7x7x2, .f32⟩
  | 106 => ⟨S16384x7x7x1, .f32⟩
  | 107 => ⟨S16384x7x7, .f32⟩
  | 108 => ⟨S16384x7x7x1, .f32⟩
  | 109 => ⟨S16384x7x7, .f32⟩
  | 110 => ⟨S16384x7x7, .f32⟩
  | 111 => ⟨S16384x7x7x1, .f32⟩
  | 112 => ⟨S16384x7x7, .f32⟩
  | 113 => ⟨S16384x7x7x1, .f32⟩
  | 114 => ⟨S16384x7x7, .f32⟩
  | 115 => ⟨S16384x7x7, .f32⟩
  | 116 => ⟨S16384x7x7x1, .f32⟩
  | 117 => ⟨S16384x7x7, .f32⟩
  | 118 => ⟨S16384x7x7x1, .f32⟩
  | 119 => ⟨S16384x7x7, .f32⟩
  | 120 => ⟨S16384x7x7, .f32⟩
  | 121 => ⟨S16384x7x7, .f32⟩
  | 122 => ⟨S16384x7x7, .f32⟩
  | 123 => ⟨S_, .f32⟩
  | 124 => ⟨S16384x7x7, .f32⟩
  | 125 => ⟨S16384x7x7, .f32⟩
  | 126 => ⟨S16384x7x7, .f32⟩
  | 127 => ⟨S16384x7x7, .i1⟩
  | _ => ⟨S16384x7x7x30, .f32⟩

abbrev hbmTy0_1 (i : Nat) : BufTy := match i % 128 with
  | 0 => ⟨S16384x7x7x2, .f32⟩
  | 1 => ⟨S16384x7x7x2, .f32⟩
  | 2 => ⟨S16384x7x7x2, .f32⟩
  | 3 => ⟨S16384x7x7x2, .f32⟩
  | 4 => ⟨S_, .f32⟩
  | 5 => ⟨S16384x7x7, .f32⟩
  | 6 => ⟨S_, .f32⟩
  | 7 => ⟨S16384x7x7, .f32⟩
  | 8 => ⟨S16384x7x7, .f32⟩
  | 9 => ⟨S16384x7x7x2, .f32⟩
  | 10 => ⟨S16384x7x7x2, .f32⟩
  | 11 => ⟨S16384x7x7x2, .f32⟩
  | 12 => ⟨S16384x7x7x2, .f32⟩
  | 13 => ⟨S16384x7x7x2, .f32⟩
  | 14 => ⟨S16384x7x7x2, .f32⟩
  | 15 => ⟨S_, .f32⟩
  | 16 => ⟨S16384x7x7, .f32⟩
  | 17 => ⟨S16384x7x7, .f32⟩
  | 18 => ⟨S16384x7x7x1, .f32⟩
  | 19 => ⟨S16384x7x7, .f32⟩
  | 20 => ⟨S16384x7x7, .f32⟩
  | 21 => ⟨S16384x7x7, .f32⟩
  | 22 => ⟨S16384x7x7, .f32⟩
  | 23 => ⟨S16384x7x7x1, .f32⟩
  | 24 => ⟨S16384x7x7, .f32⟩
  | 25 => ⟨S16384x7x7, .f32⟩
  | 26 => ⟨S_, .f32⟩
  | 27 => ⟨S16384x7x7, .f32⟩
  | 28 => ⟨S16384x7x7, .f32⟩
  | 29 => ⟨S16384x7x7, .f32⟩
  | 30 => ⟨S16384x7x7x2, .f32⟩
  | 31 => ⟨S16384x7x7x2, .f32⟩
  | 32 => ⟨S16384x7x7x2, .f32⟩
  | 33 => ⟨S16384x7x7x2, .f32⟩
  | 34 => ⟨S_, .f32⟩
  | 35 => ⟨S16384x7x7, .f32⟩
  | 36 => ⟨S_, .f32⟩
  | 37 => ⟨S16384x7x7, .f32⟩
  | 38 => ⟨S16384x7x7, .f32⟩
  | 39 => ⟨S16384x7x7x2, .f32⟩
  | 40 => ⟨S16384x7x7x2, .f32⟩
  | 41 => ⟨S16384x7x7x2, .f32⟩
  | 42 => ⟨S16384x7x7x2, .f32⟩
  | 43 => ⟨S16384x7x7x2, .f32⟩
  | 44 => ⟨S16384x7x7x2, .f32⟩
  | 45 => ⟨S_, .f32⟩
  | 46 => ⟨S16384x7x7, .f32⟩
  | 47 => ⟨S16384x7x7, .f32⟩
  | 48 => ⟨S16384x7x7x1, .f32⟩
  | 49 => ⟨S16384x7x7, .f32⟩
  | 50 => ⟨S16384x7x7, .f32⟩
  | 51 => ⟨S16384x7x7, .f32⟩
  | 52 => ⟨S16384x7x7, .f32⟩
  | 53 => ⟨S16384x7x7x1, .f32⟩
  | 54 => ⟨S16384x7x7, .f32⟩
  | 55 => ⟨S16384x7x7, .f32⟩
  | 56 => ⟨S_, .f32⟩
  | 57 => ⟨S16384x7x7, .f32⟩
  | 58 => ⟨S16384x7x7, .f32⟩
  | 59 => ⟨S16384x7x7, .f32⟩
  | 60 => ⟨S16384x7x7x20, .f32⟩
  | 61 => ⟨S16384x7x7x20, .f32⟩
  | 62 => ⟨S16384x7x7x20, .f32⟩
  | 63 => ⟨S16384x7x7x20, .f32⟩
  | 64 => ⟨S_, .f32⟩
  | 65 => ⟨S16384x7x7, .f32⟩
  | 66 => ⟨S16384x7x7, .f32⟩
  | 67 => ⟨S16384x7x7, .f32⟩
  | 68 => ⟨S16384x7x7x1, .f32⟩
  | 69 => ⟨S16384x7x7, .f32⟩
  | 70 => ⟨S16384x7x7, .f32⟩
  | 71 => ⟨S16384x7x7x1, .f32⟩
  | 72 => ⟨S16384x7x7, .f32⟩
  | 73 => ⟨S16384x7x7, .f32⟩
  | 74 => ⟨S16384x7x7, .f32⟩
  | 75 => ⟨S_, .f32⟩
  | 76 => ⟨S16384x7x7, .f32⟩
  | 77 => ⟨S16384x7x7, .f32⟩
  | 78 => ⟨S16384x7x7, .f32⟩
  | 79 => ⟨S_, .f32⟩
  | 80 => ⟨S_, .f32⟩
  | 81 => ⟨S_, .f32⟩
  | 82 => ⟨S_, .f32⟩
  | _ => ⟨S16384x7x7x30, .f32⟩

abbrev hbmTy (i : Nat) : BufTy := match i / 128 with
  | 0 => hbmTy0_0 i
  | 1 => hbmTy0_1 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_9 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_10 : Ref sig .tc := ⟨.hbm, 102, rfl⟩
abbrev main_call1_v0 : Ref sig .tc := ⟨.hbm, 103, rfl⟩
abbrev main_call1_v1 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_11 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_12 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_15 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_cst_16 : Ref sig .tc := ⟨.hbm, 162, rfl⟩
abbrev main_v139 : Ref sig .tc := ⟨.hbm, 163, rfl⟩
abbrev main_cst_17 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_18 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_19 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_cst_20 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_cst_21 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_cst_22 : Ref sig .tc := ⟨.hbm, 207, rfl⟩
abbrev main_v178 : Ref sig .tc := ⟨.hbm, 208, rfl⟩
abbrev main_cst_23 : Ref sig .tc := ⟨.hbm, 209, rfl⟩
abbrev main_v179 : Ref sig .tc := ⟨.hbm, 210, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x1_0_0_0_0 : S16384x7x7x30.Slices ![0, 0, 0, 0] S16384x7x7x1
  transposes_S16384x7x7_S16384x7x7_0_2_1 : S16384x7x7.Transposes [0, 2, 1] S16384x7x7
  slices_S16384x7x7x30_S16384x7x7x1_0_0_0_1 : S16384x7x7x30.Slices ![0, 0, 0, 1] S16384x7x7x1
  slices_S16384x7x7x30_S16384x7x7x1_0_0_0_2 : S16384x7x7x30.Slices ![0, 0, 0, 2] S16384x7x7x1
  slices_S16384x7x7x30_S16384x7x7x1_0_0_0_3 : S16384x7x7x30.Slices ![0, 0, 0, 3] S16384x7x7x1
  bcast_S16384x7x7_S16384x7x7x1_0_1_2 : S16384x7x7.BroadcastsInDim S16384x7x7x1 (![0, 1, 2] : Fin 3 → Fin S16384x7x7x1.rank)
  concatenates_S16384x7x7x1_S16384x7x7x1_S16384x7x7x1_S16384x7x7x1_S16384x7x7x4_d3 : Shape.Concatenates [S16384x7x7x1, S16384x7x7x1, S16384x7x7x1, S16384x7x7x1] S16384x7x7x4 3
  slices_S16384x7x7x30_S16384x7x7x4_0_0_0_0 : S16384x7x7x30.Slices ![0, 0, 0, 0] S16384x7x7x4
  slices_S16384x7x7x4_S16384x7x7x2_0_0_0_0 : S16384x7x7x4.Slices ![0, 0, 0, 0] S16384x7x7x2
  slices_S16384x7x7x4_S16384x7x7x2_0_0_0_2 : S16384x7x7x4.Slices ![0, 0, 0, 2] S16384x7x7x2
  bcast_S_S16384x7x7x2 : S_.BroadcastsInDim S16384x7x7x2 (![] : Fin 0 → Fin S16384x7x7x2.rank)
  slices_S16384x7x7x2_S16384x7x7x1_0_0_0_0 : S16384x7x7x2.Slices ![0, 0, 0, 0] S16384x7x7x1
  slices_S16384x7x7x2_S16384x7x7x1_0_0_0_1 : S16384x7x7x2.Slices ![0, 0, 0, 1] S16384x7x7x1
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  slices_S16384x7x7x30_S16384x7x7x2_0_0_0_0 : S16384x7x7x30.Slices ![0, 0, 0, 0] S16384x7x7x2
  reducesTo_S16384x7x7x2_S16384x7x7_d3 : S16384x7x7x2.ReducesTo [3] S16384x7x7
  h_S_ : 0 < S_.numel
  slices_S16384x7x7x30_S16384x7x7x2_0_0_0_2 : S16384x7x7x30.Slices ![0, 0, 0, 2] S16384x7x7x2
  slices_S16384x7x7x30_S16384x7x7x1_0_0_0_9 : S16384x7x7x30.Slices ![0, 0, 0, 9] S16384x7x7x1
  slices_S16384x7x7x30_S16384x7x7x2_0_0_0_5 : S16384x7x7x30.Slices ![0, 0, 0, 5] S16384x7x7x2
  slices_S16384x7x7x30_S16384x7x7x2_0_0_0_7 : S16384x7x7x30.Slices ![0, 0, 0, 7] S16384x7x7x2
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7
  reducesTo_S16384x7x7_S_d0_1_2 : S16384x7x7.ReducesTo [0, 1, 2] S_

variable [Facts₀]

class Facts : Prop extends Facts₀ where

variable [Facts]
-- ==== Proof.LibLastAxis.lean ====
/-
  Layout operations on the LAST axis of a rank-4 array, read at an index given by coordinates.

  A cell-wise program over an array shaped [n, a, b, c] (a batch of a × b grids of cells, c channels per cell)
  slices channels off the last axis, drops or adds a trailing unit axis, stacks four one-channel arrays along the
  last axis, and sums over the last axis. Each lemma below reads one such operation at an index written
  ix3 / ix4 of its coordinates as the operand at coordinates: the channel coordinate shifted by the slice's
  offset, the unit coordinate inserted or dropped, the piece chosen by the channel, the sum over the channel.
  They hold at every extent, so one statement serves a block of the array and the whole array.
-/
import Idealize.ShloMosaic.Lib.ValueIdx
import Idealize.ShloMosaic.Lib.ValueLayout
import Idealize.ShloMosaic.Lib.Pipeline.Value
import Idealize.ShloMosaic.PureOps.Ideal.Laws

namespace LastAxis

open Idealize.ShloMosaic Idealize.ShloMosaic.ValueIdx

variable {α : Type}

/-- Channel o + k of a cell with c channels, for a slice of m channels from offset o. -/
abbrev chan {c m : Nat} (o : Nat) (h : o + m ≤ c) (k : Fin m) : Fin c := ⟨o + k.val, by have := k.isLt; omega⟩

/-- A rank-4 array cut along its last axis from o reads, at (n, a, b, k), the source at (n, a, b, o + k). -/
theorem slice4_last_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (e : Fin n2) (k : Fin m) :
    extractStridedSlice ⟨4, ![n0, n1, n2, m]⟩ ![0, 0, 0, o] X h (ix4 a b e k)
      = X (ix4 a b e (chan o (h.2 3) k)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-- An [n, a, b, 1] array cast to [n, a, b] reads, at (i, j, k), the operand at (i, j, k, 0). -/
theorem shapeCast_abc1_abc_apply {n0 n1 n2 : Nat} (x : (⟨4, ![n0, n1, n2, 1]⟩ : Shape).Idx → α)
    (h : (⟨4, ![n0, n1, n2, 1]⟩ : Shape).ShapeCasts ⟨3, ![n0, n1, n2]⟩) (i : Fin n0) (j : Fin n1) (k : Fin n2) :
    shapeCast ⟨3, ![n0, n1, n2]⟩ x h (ix3 i j k) = x (ix4 i j k (0 : Fin 1)) :=
  shapeCast_apply x h _ _ (by
    rw [Shape.rowMajor_val_four, Shape.rowMajor_val_three]
    show ((i.val * n1 + j.val) * n2 + k.val) * 1 + 0 = (i.val * n1 + j.val) * n2 + k.val
    rw [Nat.mul_one, Nat.add_zero])

/-- An [n, a, b] array cast to [n, a, b, 1] reads, at (i, j, k, u), the operand at (i, j, k), whatever the unit
    coordinate u. -/
theorem shapeCast_abc_abc1_apply {n0 n1 n2 : Nat} (x : (⟨3, ![n0, n1, n2]⟩ : Shape).Idx → α)
    (h : (⟨3, ![n0, n1, n2]⟩ : Shape).ShapeCasts ⟨4, ![n0, n1, n2, 1]⟩) (i : Fin n0) (j : Fin n1) (k : Fin n2) (u : Fin 1) :
    shapeCast ⟨4, ![n0, n1, n2, 1]⟩ x h (ix4 i j k u) = x (ix3 i j k) :=
  shapeCast_apply x h _ _ (by
    have hu : u.val = 0 := by omega
    rw [Shape.rowMajor_val_four, Shape.rowMajor_val_three]
    show (i.val * n1 + j.val) * n2 + k.val = ((i.val * n1 + j.val) * n2 + k.val) * 1 + u.val
    rw [hu, Nat.mul_one, Nat.add_zero])

/-- One of four values, chosen by a channel in 0 … 3. -/
def pick4 {β : Type} (c : Fin 4) (a0 a1 a2 a3 : β) : β :=
  match c with | ⟨0, _⟩ => a0 | ⟨1, _⟩ => a1 | ⟨2, _⟩ => a2 | ⟨3, _⟩ => a3

/-- An [n, a, b] array broadcast into [n, a, b, 1] along its own three axes reads, at (i, j, k, u), the operand at
    (i, j, k). The three extents are not one, so that no axis of the operand is stretched. -/
theorem broadcastInDim_abc_abc1_apply {n0 n1 n2 : Nat} (h0 : n0 ≠ 1) (h1 : n1 ≠ 1) (h2 : n2 ≠ 1)
    (x : (⟨3, ![n0, n1, n2]⟩ : Shape).Idx → α)
    (h : (⟨3, ![n0, n1, n2]⟩ : Shape).BroadcastsInDim ⟨4, ![n0, n1, n2, 1]⟩ ![0, 1, 2])
    (i : Fin n0) (j : Fin n1) (k : Fin n2) (u : Fin 1) :
    broadcastInDim ⟨4, ![n0, n1, n2, 1]⟩ ![0, 1, 2] h x (ix4 i j k u) = x (ix3 i j k) :=
  broadcastInDim_apply _ h x _ _ (fun a => by
    match a with
    | ⟨0, _⟩ => show i.val = if n0 = 1 then 0 else i.val; rw [if_neg h0]
    | ⟨1, _⟩ => show j.val = if n1 = 1 then 0 else j.val; rw [if_neg h1]
    | ⟨2, _⟩ => show k.val = if n2 = 1 then 0 else k.val; rw [if_neg h2])

/-- Four one-channel arrays stacked along the last axis read, at (i, j, k, c), the c-th of them at (i, j, k, 0). -/
theorem concatenate_units4_apply {n0 n1 n2 : Nat} (x0 x1 x2 x3 : (⟨4, ![n0, n1, n2, 1]⟩ : Shape).Idx → α)
    (h : Shape.Concatenates
      (([⟨⟨4, ![n0, n1, n2, 1]⟩, x0⟩, ⟨⟨4, ![n0, n1, n2, 1]⟩, x1⟩, ⟨⟨4, ![n0, n1, n2, 1]⟩, x2⟩, ⟨⟨4, ![n0, n1, n2, 1]⟩, x3⟩] :
        List ((s : Shape) × (s.Idx → α))).map (·.1)) ⟨4, ![n0, n1, n2, 4]⟩ 3)
    (i : Fin n0) (j : Fin n1) (k : Fin n2) (c : Fin 4) :
    concatenate ⟨4, ![n0, n1, n2, 4]⟩ 3
        [⟨⟨4, ![n0, n1, n2, 1]⟩, x0⟩, ⟨⟨4, ![n0, n1, n2, 1]⟩, x1⟩, ⟨⟨4, ![n0, n1, n2, 1]⟩, x2⟩, ⟨⟨4, ![n0, n1, n2, 1]⟩, x3⟩] h
        (ix4 i j k c)
      = pick4 c (x0 (ix4 i j k 0)) (x1 (ix4 i j k 0)) (x2 (ix4 i j k 0)) (x3 (ix4 i j k 0)) := by
  match c with
  | ⟨0, _⟩ =>
    exact concatenate_apply_piece 3 _ h _ 0 (by show (0 : Nat) < 4; omega) _ x0 rfl rfl 0 rfl (ix4 i j k 0)
      (fun b hb => by match b with | ⟨0, _⟩ => rfl | ⟨1, _⟩ => rfl | ⟨2, _⟩ => rfl | ⟨3, _⟩ => exact absurd rfl hb) rfl
  | ⟨1, _⟩ =>
    exact concatenate_apply_piece 3 _ h _ 1 (by show (1 : Nat) < 4; omega) _ x1 rfl rfl 1 rfl (ix4 i j k 0)
      (fun b hb => by match b with | ⟨0, _⟩ => rfl | ⟨1, _⟩ => rfl | ⟨2, _⟩ => rfl | ⟨3, _⟩ => exact absurd rfl hb) rfl
  | ⟨2, _⟩ =>
    exact concatenate_apply_piece 3 _ h _ 2 (by show (2 : Nat) < 4; omega) _ x2 rfl rfl 2 rfl (ix4 i j k 0)
      (fun b hb => by match b with | ⟨0, _⟩ => rfl | ⟨1, _⟩ => rfl | ⟨2, _⟩ => rfl | ⟨3, _⟩ => exact absurd rfl hb) rfl
  | ⟨3, _⟩ =>
    exact concatenate_apply_piece 3 _ h _ 3 (by show (3 : Nat) < 4; omega) _ x3 rfl rfl 3 rfl (ix4 i j k 0)
      (fun b hb => by match b with | ⟨0, _⟩ => rfl | ⟨1, _⟩ => rfl | ⟨2, _⟩ => rfl | ⟨3, _⟩ => exact absurd rfl hb) rfl

/-- At the extended reals an f32 sum over the last axis of a rank-4 array, from the zero word, reads, at (i, j, k),
    the sum over the channel. (The two proof arguments are typed as a printed program's are: the format fact, and
    the zero word equal to itself.) -/
theorem multiReduction_add_last4_apply {n0 n1 n2 n3 : Nat} (src : FVec Ideal ⟨4, ![n0, n1, n2, n3]⟩ .f32)
    (h : (⟨4, ![n0, n1, n2, n3]⟩ : Shape).Reduces [3] ⟨3, ![n0, n1, n2]⟩)
    (hφ : FKind.Formats .f32) (hacc : (0x00000000#32 : BitVec 32) = 0x00000000#32) (i : Fin n0) (j : Fin n1) (k : Fin n2) :
    multiReduction .add [3] ⟨3, ![n0, n1, n2]⟩ src 0x00000000#32 h hφ hacc (ix3 i j k) = ∑ c : Fin n3, src (ix4 i j k c) := by
  refine (Ideal.multiReduction_add_single src 0x00000000#32 h hφ hacc (ix3 i j k)).trans ?_
  refine Finset.sum_congr rfl fun c _ => congrArg src (funext fun a => Fin.ext ?_)
  match a with | ⟨0, _⟩ => rfl | ⟨1, _⟩ => rfl | ⟨2, _⟩ => rfl | ⟨3, _⟩ => rfl

/-- … over the last axis of a rank-3 array, at (i, j). -/
theorem multiReduction_add_last3_apply {n0 n1 n2 : Nat} (src : FVec Ideal ⟨3, ![n0, n1, n2]⟩ .f32)
    (h : (⟨3, ![n0, n1, n2]⟩ : Shape).Reduces [2] ⟨2, ![n0, n1]⟩)
    (hφ : FKind.Formats .f32) (hacc : (0x00000000#32 : BitVec 32) = 0x00000000#32) (i : Fin n0) (j : Fin n1) :
    multiReduction .add [2] ⟨2, ![n0, n1]⟩ src 0x00000000#32 h hφ hacc (ix2 i j) = ∑ c : Fin n2, src (ix3 i j c) := by
  refine (Ideal.multiReduction_add_single src 0x00000000#32 h hφ hacc (ix2 i j)).trans ?_
  refine Finset.sum_congr rfl fun c _ => congrArg src (funext fun a => Fin.ext ?_)
  match a with | ⟨0, _⟩ => rfl | ⟨1, _⟩ => rfl | ⟨2, _⟩ => rfl

/-- … over the last axis of a matrix, at i. -/
theorem multiReduction_add_last2_apply {n0 n1 : Nat} (src : FVec Ideal ⟨2, ![n0, n1]⟩ .f32)
    (h : (⟨2, ![n0, n1]⟩ : Shape).Reduces [1] ⟨1, ![n0]⟩)
    (hφ : FKind.Formats .f32) (hacc : (0x00000000#32 : BitVec 32) = 0x00000000#32) (i : Fin n0) :
    multiReduction .add [1] ⟨1, ![n0]⟩ src 0x00000000#32 h hφ hacc (ix1 i) = ∑ c : Fin n1, src (ix2 i c) := by
  refine (Ideal.multiReduction_add_single src 0x00000000#32 h hφ hacc (ix1 i)).trans ?_
  refine Finset.sum_congr rfl fun c _ => congrArg src (funext fun a => Fin.ext ?_)
  match a with | ⟨0, _⟩ => rfl | ⟨1, _⟩ => rfl

/-- The host's sum over the last axis of a rank-4 array, at the extended reals, at (i, j, k): the initial value plus
    the sum over the channel. -/
theorem hostReduceAdd_last4_apply {n0 n1 n2 n3 : Nat} (x : (⟨4, ![n0, n1, n2, n3]⟩ : Shape).Idx → EReal) (init : EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (i : Fin n0) (j : Fin n1) (k : Fin n2) :
    Ideal.hostReduceAdd h' x init (ix3 i j k) = init + ∑ c : Fin n3, x (ix4 i j k c) := by
  rw [Ideal.hostReduceAdd_single h' h]
  refine congrArg (init + ·) (Finset.sum_congr rfl fun c _ => congrArg x (funext fun a => Fin.ext ?_))
  match a with | ⟨0, _⟩ => rfl | ⟨1, _⟩ => rfl | ⟨2, _⟩ => rfl | ⟨3, _⟩ => rfl

/-- The host's f32 sum over the last axis of a rank-4 array, as a program spells it (an initial scalar given as an
    array of one element), at (i, j, k): the initial value plus the sum over the channel. -/
theorem Host_reduceAdd_last4_apply {n0 n1 n2 n3 : Nat} {u : Shape} (x : FVec Ideal ⟨4, ![n0, n1, n2, n3]⟩ .f32)
    (init : u.Idx → Ideal .f32) (h' : (⟨4, ![n0, n1, n2, n3]⟩ : Shape).ReducesTo [3] ⟨3, ![n0, n1, n2]⟩)
    (hu : 0 < u.numel) (i : Fin n0) (j : Fin n1) (k : Fin n2) :
    Host.reduceAdd x init h' hu (ix3 i j k) = init (Shape.Idx.first hu) + ∑ c : Fin n3, x (ix4 i j k c) := by
  simp only [Host.reduceAdd, Ideal.hostReduceAdd_def]
  exact hostReduceAdd_last4_apply x _ h' ⟨h'.1, Nat.zero_lt_succ 2, h'.2⟩ i j k

/-- A scalar broadcast into any shape reads the scalar. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- The host's quotient and root, entry by entry, at the extended reals. -/
theorem Host_divf_apply {s : Shape} {φ : FTy} (a b : FVec Ideal s φ) (i : s.Idx) : Host.divf a b i = Ideal.div (a i) (b i) := rfl
theorem Host_sqrt_apply {s : Shape} {φ : FTy} (a : FVec Ideal s φ) (i : s.Idx) : Host.sqrt a i = Ideal.sqrt (a i) := rfl
/-- A kernel's root, entry by entry, at the extended reals. -/
theorem sqrt_apply {s : Shape} {φ : FTy} (a : FVec Ideal s φ) (i : s.Idx) : sqrt a i = Ideal.sqrt (a i) := rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LastAxis
-- ==== Proof.CellLoss.lean ====
/-
  The loss of ONE cell of a 7 × 7 detection grid, as a function of the cell's thirty predicted channels p, its
  thirty label channels l, and the label's x-centre lx read at the transposed cell.

  Channels: 0–3 and 5–8 are two predicted boxes (centre x, centre y, width, height), 4 and 9 their confidences,
  10–29 class scores. The label's box is (lx, l 1, l 2, l 3). The intersection over union of two boxes is the
  product of the overlaps of their x- and y-intervals over the sum of the areas less that product, plus a small
  constant. The box with the larger intersection over union is the responsible one; its loss is five times the
  squared centre error, plus the squared error of the roots of the sizes, plus the squared error of its confidence
  against its intersection over union, plus half the square of the other box's confidence; the class loss is the
  squared error of the twenty scores. A cell whose label channel 4 is one carries the responsible box's loss plus
  the class loss; any other cell carries half the sum of the squared confidences.
-/
import Idealize.ShloMosaic.PureOps.Ideal
import Idealize.ShloMosaic.PureOps.Ideal.Laws
import proofs.«129559_j81767587381937_1_alg».proof.Proof.LibLastAxis

noncomputable section

namespace CellLoss

open Idealize.ShloMosaic LastAxis

/-- The literals of both programs, as the extended reals their words denote. -/
abbrev half : EReal := Ideal.ofBits .f32 0x3F000000#32
abbrev five : EReal := Ideal.ofBits .f32 0x40A00000#32
abbrev tiny : EReal := Ideal.ofBits .f32 0x2EDBE6FF#32
abbrev zero : EReal := Ideal.ofBits .f32 0x00000000#32
abbrev one : EReal := Ideal.ofBits .f32 0x3F800000#32

/-- The overlap of two intervals given by centre and width, cut off at zero. -/
def overlap (ac aw bc bw : EReal) : EReal :=
  max zero (min (ac + aw * half) (bc + bw * half) - max (ac - aw * half) (bc - bw * half))

/-- Intersection over union of the boxes a and b, each (centre x, centre y, width, height). -/
def iou (a b : Fin 4 → EReal) : EReal :=
  Ideal.div (overlap (a 0) (a 2) (b 0) (b 2) * overlap (a 1) (a 3) (b 1) (b 3))
    (a 2 * a 3 + b 2 * b 3 - overlap (a 0) (a 2) (b 0) (b 2) * overlap (a 1) (a 3) (b 1) (b 3) + tiny)

/-- The label's box: its x-centre is the one read at the transposed cell. -/
def lbox (l : Fin 30 → EReal) (lx : EReal) : Fin 4 → EReal := fun c => pick4 c lx (l 1) (l 2) (l 3)

/-- The predicted box whose first channel is o. -/
def pbox (p : Fin 30 → EReal) (o : Nat) (h : o + 4 ≤ 30) : Fin 4 → EReal := fun c => p (chan o h c)

/-- The loss of the box at channels o … o + 3 when it is the responsible one: v is its intersection over union,
    conf its own confidence and other the other box's. -/
def boxLoss (p l : Fin 30 → EReal) (o : Nat) (h0 : o + 2 ≤ 30) (h2 : o + 2 + 2 ≤ 30) (v conf other : EReal) : EReal :=
  five * (∑ k : Fin 2, (p (chan o h0 k) - l (chan o h0 k)) * (p (chan o h0 k) - l (chan o h0 k)))
    + (∑ k : Fin 2, (Ideal.sqrt (p (chan (o + 2) h2 k)) - Ideal.sqrt (l (chan (o + 2) h2 k)))
        * (Ideal.sqrt (p (chan (o + 2) h2 k)) - Ideal.sqrt (l (chan (o + 2) h2 k))))
    + (v - conf) * (v - conf)
    + half * (other * other)

/-- The squared error of the twenty class scores. -/
def clsLoss (p l : Fin 30 → EReal) : EReal :=
  ∑ k : Fin 20, (l (chan 10 (by decide) k) - p (chan 10 (by decide) k)) * (l (chan 10 (by decide) k) - p (chan 10 (by decide) k))

/-- The cell's loss. -/
def cell (p l : Fin 30 → EReal) (lx : EReal) : EReal :=
  Scalar.select (FloatOps.cmpf (F := Ideal) (φ := .f32) .oeq (l 4) one)
    (Scalar.select
        (FloatOps.cmpf (F := Ideal) (φ := .f32) .ogt (iou (pbox p 0 (by decide)) (lbox l lx)) (iou (pbox p 5 (by decide)) (lbox l lx)))
        (boxLoss p l 0 (by decide) (by decide) (iou (pbox p 0 (by decide)) (lbox l lx)) (p 4) (p 9))
        (boxLoss p l 5 (by decide) (by decide) (iou (pbox p 5 (by decide)) (lbox l lx)) (p 9) (p 4))
      + clsLoss p l)
    (half * (p 4 * p 4 + p 9 * p 9))

end CellLoss

end
-- ==== Proof.KernelCell.lean ====
/-
  The kernel's body on one block of 512 grids, read at the extended reals.

  The body loads a block of predictions x0 and of labels x1, both [512, 7, 7, 30], and the block x2 [512, 7, 7] of
  the labels' x-centres read at the transposed cell; it computes the loss of every cell of the block, sums the
  losses over the block, and adds the sum to the accumulator xo it loaded. Here each stage is read at an index:
  the label's box and the predicted boxes channel by channel, the two intersections over union cell by cell, and
  the stored value as the accumulator plus the sum over the block's cells of CellLoss.cell.
-/
import proofs.«129559_j81767587381937_1_alg».proof.Proof.Gen.KernelIdeal.Skeleton
import proofs.«129559_j81767587381937_1_alg».proof.Proof.CellLoss
import Idealize.ShloMosaic.Lib.ValueIdx
import Idealize.ShloMosaic.Lib.ValueLayout

noncomputable section

namespace Cert.KernelIdeal.Cell

open Idealize.ShloMosaic Idealize.ShloMosaic.ValueIdx LastAxis CellLoss Cert.KernelIdeal Cert.KernelIdeal.Gen

/-- The thirty channels of cell (r, y, x) of a block. -/
abbrev row (v : Vec Ideal S512x7x7x30 .f32) (r : Fin 512) (y x : Fin 7) : Fin 30 → EReal := fun ch => v (ix4 r y x ch)

/-- The value the body stores, as a function of the three blocks it loaded and the accumulator it loaded: the
    body's stages composed as the body composes them. -/
def stored {F : FTy → Type} [FloatOps F] (x0 x1 : Vec F S512x7x7x30 .f32) (x2 : Vec F S512x7x7 .f32) (xo : Vec F S1x1x1 .f32) :
    FVec F S1x1x1 .f32 :=
  k0_pay17 x0 x1
    (k0_pay12 (k0_pay2 x1 x2) (k0_pay8 x0) (k0_pay10 x0 (k0_pay2 x1 x2)) (k0_pay11 x0 (k0_pay2 x1 x2)))
    (k0_pay13 (k0_pay2 x1 x2) (k0_pay7 (k0_pay2 x1 x2) (k0_pay3 x0) (k0_pay4 x0) (k0_pay5 x1 x2) (k0_pay6 x0 x1 x2)) (k0_pay8 x0)
      (k0_pay10 x0 (k0_pay2 x1 x2)) (k0_pay11 x0 (k0_pay2 x1 x2)))
    (k0_pay14 x0 x1 (k0_pay7 (k0_pay2 x1 x2) (k0_pay3 x0) (k0_pay4 x0) (k0_pay5 x1 x2) (k0_pay6 x0 x1 x2)))
    (k0_pay15 x0 x1) (k0_pay16 x0) xo

variable (x0 x1 : Vec Ideal S512x7x7x30 .f32) (x2 : Vec Ideal S512x7x7 .f32)

/-- The stacked label box, channel c of cell (r, y, x): the transposed x-centre, then the label's channels 1, 2, 3. -/
theorem lbox_at (r : Fin 512) (y x : Fin 7) (c : Fin 4) :
    k0_pay2 (F := Ideal) x1 x2 (ix4 r y x c) = lbox (row x1 r y x) (x2 (ix3 r y x)) c := by
  unfold k0_pay2
  simp only [concatenate_units4_apply, shapeCast_abc_abc1_apply, shapeCast_abc1_abc_apply, slice4_last_apply, shapeCast_self]
  rfl

/-- The intersection over union of the first predicted box and the label's box, at cell (r, y, x). -/
theorem iou1_at (r : Fin 512) (y x : Fin 7) :
    k0_pay7 (F := Ideal) (k0_pay2 x1 x2) (k0_pay3 x0) (k0_pay4 x0) (k0_pay5 x1 x2) (k0_pay6 x0 x1 x2) (ix3 r y x)
      = iou (pbox (row x0 r y x) 0 (by decide)) (lbox (row x1 r y x) (x2 (ix3 r y x))) := by
  unfold k0_pay7 k0_pay6 k0_pay5 k0_pay4 k0_pay3
  simp only [divf_apply, mulf_apply, addf_apply, subf_apply, maximumf_apply, minimumf_apply, broadcast_apply,
    shapeCast_abc1_abc_apply, slice4_last_apply, lbox_at, Ideal.ofBits_def]
  rfl

/-- The same of the second predicted box. -/
theorem iou2_at (r : Fin 512) (y x : Fin 7) :
    k0_pay12 (F := Ideal) (k0_pay2 x1 x2) (k0_pay8 x0) (k0_pay10 x0 (k0_pay2 x1 x2)) (k0_pay11 x0 (k0_pay2 x1 x2)) (ix3 r y x)
      = iou (pbox (row x0 r y x) 5 (by decide)) (lbox (row x1 r y x) (x2 (ix3 r y x))) := by
  unfold k0_pay12 k0_pay11 k0_pay10 k0_pay9 k0_pay8
  simp only [divf_apply, mulf_apply, addf_apply, subf_apply, maximumf_apply, minimumf_apply, broadcast_apply,
    shapeCast_abc1_abc_apply, slice4_last_apply, lbox_at, Ideal.ofBits_def]
  rfl

/-- The element of a [1, 1] vector taken at position (0, 0). -/
theorem extractAt_00 {α : Type} (v : S1x1.Idx → α) (h : ∀ a, (![0, 0] : Fin 2 → Nat) a < S1x1.size a) :
    extractAt ![0, 0] v h = v (ix2 0 0) := by
  unfold extractAt
  exact congrArg v (funext fun a => by match a with | ⟨0, _⟩ => rfl | ⟨1, _⟩ => rfl)

/-- The first box's loss when it is responsible, at cell (r, y, x), over any value v of its intersection over union. -/
theorem box1_at (v : FVec Ideal S512x7x7 .f32) (r : Fin 512) (y x : Fin 7) :
    k0_pay14 (F := Ideal) x0 x1 v (ix3 r y x)
      = boxLoss (row x0 r y x) (row x1 r y x) 0 (by decide) (by decide) (v (ix3 r y x)) (x0 (ix4 r y x 4)) (x0 (ix4 r y x 9)) := by
  unfold k0_pay14
  simp only [addf_apply, mulf_apply, subf_apply, broadcast_apply, shapeCast_abc1_abc_apply, slice4_last_apply]
  rw [multiReduction_add_last4_apply, multiReduction_add_last4_apply]
  simp only [mulf_apply, subf_apply, sqrt_apply, slice4_last_apply, Ideal.ofBits_def]
  rfl

/-- Five times the squared centre error of the second box, at cell (r, y, x). -/
theorem centre2_at (r : Fin 512) (y x : Fin 7) :
    k0_pay15 (F := Ideal) x0 x1 (ix3 r y x)
      = five * ∑ k : Fin 2, (x0 (ix4 r y x (chan 5 (by decide) k)) - x1 (ix4 r y x (chan 5 (by decide) k)))
          * (x0 (ix4 r y x (chan 5 (by decide) k)) - x1 (ix4 r y x (chan 5 (by decide) k))) := by
  unfold k0_pay15
  simp only [mulf_apply, broadcast_apply]
  rw [multiReduction_add_last4_apply]
  simp only [mulf_apply, subf_apply, slice4_last_apply, Ideal.ofBits_def]

/-- The roots of the second box's predicted sizes. -/
theorem root2_at (r : Fin 512) (y x : Fin 7) (k : Fin 2) :
    k0_pay16 (F := Ideal) x0 (ix4 r y x k) = Ideal.sqrt (x0 (ix4 r y x (chan 7 (by decide) k))) := by
  unfold k0_pay16
  simp only [sqrt_apply, slice4_last_apply]

/-- THE STORED VALUE: the accumulator the body loaded plus the sum, over the block's 512 × 7 × 7 cells, of the
    cell's loss. -/
theorem stored_eq (xo : Vec Ideal S1x1x1 .f32) (i : S1x1x1.Idx) :
    stored x0 x1 x2 xo i
      = xo i + ∑ r : Fin 512, ∑ y : Fin 7, ∑ x : Fin 7, cell (row x0 r y x) (row x1 r y x) (x2 (ix3 r y x)) := by
  unfold stored k0_pay17 k0_pay13
  simp only [addf_apply, broadcast_apply, shapeCast_self, extractAt_00, shapeCast_a_1a_apply]
  rw [multiReduction_add_last2_apply]
  refine congrArg (xo i + ·) (Finset.sum_congr rfl fun r _ => ?_)
  rw [shapeCast_a_1a_apply, multiReduction_add_last2_apply]
  refine Finset.sum_congr rfl fun y _ => ?_
  rw [multiReduction_add_last3_apply]
  refine Finset.sum_congr rfl fun x _ => ?_
  simp only [select_apply, cmpf_apply, addf_apply, mulf_apply, subf_apply, broadcast_apply, shapeCast_abc1_abc_apply,
    slice4_last_apply, box1_at, centre2_at, iou1_at, iou2_at]
  rw [multiReduction_add_last4_apply, multiReduction_add_last4_apply]
  simp only [mulf_apply, subf_apply, sqrt_apply, slice4_last_apply, root2_at, Ideal.ofBits_def]
  rfl

end Cert.KernelIdeal.Cell

end
-- ==== Proof.KernelRun.lean ====
/-
  The kernel's run, read at the extended reals: what its result array holds after the last grid point.

  The grid has 2 × 16 points; point n works on block n of 512 grids and accumulates into entry n / 16 of a
  two-entry result: at the first point of a half the body resets the entry and adds the block's loss, at the other
  points it adds the block's loss to what the point before left. So after point n the entry holds the sum of the
  block losses of its half up to n; the entry is written back at the last point of its half, and the result array
  ends holding, at h, the sum of the sixteen block losses of half h.
-/
import proofs.«129559_j81767587381937_1_alg».proof.Proof.Gen.KernelIdeal.Frame
import proofs.«129559_j81767587381937_1_alg».proof.Proof.KernelCell
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx LastAxis CellLoss

/-! ## What the body leaves in the accumulator, in each of its two cases -/

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Away from the first point of a half the body leaves the stored value over the accumulator xo it found. -/
theorem out_B (c : Dev nD) (i : grid0.Coords) (a2 : Memref sig .tc .vmem S512x7x7x30 .f32) (h2 : a2.IsWhole)
    (a3 : Memref sig .tc .vmem S512x7x7x30 .f32) (h3 : a3.IsWhole) (a4 : Memref sig .tc .vmem S512x7x7 .f32) (h4 : a4.IsWhole)
    (a5 : Memref sig .tc .vmem S1x1x1 .f32) (h5 : a5.IsWhole) (hc : ¬cond0_0 i)
    (x0 x1 : Vec F S512x7x7x30 .f32) (x2 : Vec F S512x7x7 .f32) (xo : Vec F S1x1x1 .f32) :
    out0_B_3 c i a2 h2 a3 h3 a4 h4 a5 h5 hc x0 x1 x2 xo = Cell.stored x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  unfold Cell.stored
  simp only [View.readAt_eq_ld, h2.read_unread, h3.read_unread, h4.read_unread, h5.read_unread,
    View.ld_unit_zero (S := S512x7x7x30) hz4, View.ld_unit_zero (S := S512x7x7) hz3, View.ld_unit_zero (S := S1x1x1) hz3]

/-- At the first point of a half the body stores zero, reads it back, and leaves the stored value over zero. -/
theorem out_A (c : Dev nD) (i : grid0.Coords) (a2 : Memref sig .tc .vmem S512x7x7x30 .f32) (h2 : a2.IsWhole)
    (a3 : Memref sig .tc .vmem S512x7x7x30 .f32) (h3 : a3.IsWhole) (a4 : Memref sig .tc .vmem S512x7x7 .f32) (h4 : a4.IsWhole)
    (a5 : Memref sig .tc .vmem S1x1x1 .f32) (h5 : a5.IsWhole) (hc : cond0_0 i)
    (x0 x1 : Vec F S512x7x7x30 .f32) (x2 : Vec F S512x7x7 .f32) :
    out0_A_3 c i a2 h2 a3 h3 a4 h4 a5 h5 hc x0 x1 x2 = Cell.stored x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  unfold Cell.stored
  simp only [View.readAt_eq_ld, h2.read_unread, h3.read_unread, h4.read_unread,
    View.ld_unit_zero (S := S512x7x7x30) hz4, View.ld_unit_zero (S := S512x7x7) hz3, View.ld_unit_zero (S := S1x1x1) hz3]

end Pieces

/-! ## The accumulator point by point -/

variable (m : (ℓ : Loc nD τ sig) → Buf (Elt Ideal) ℓ) (ρ : Dev nD → PrngReg)

/-- The three input blocks at point t, at their literal shapes. -/
abbrev pblk (c : Dev nD) (t : Fin cfg0.N) : Vec Ideal S512x7x7x30 .f32 := iblk m c 0 t
abbrev lblk (c : Dev nD) (t : Fin cfg0.N) : Vec Ideal S512x7x7x30 .f32 := iblk m c 1 t
abbrev tblk (c : Dev nD) (t : Fin cfg0.N) : Vec Ideal S512x7x7 .f32 := iblk m c 2 t

/-- The loss of block t: the sum of its cells' losses. -/
def bsum (c : Dev nD) (t : Fin cfg0.N) : EReal :=
  ∑ r : Fin 512, ∑ y : Fin 7, ∑ x : Fin 7,
    cell (Cell.row (pblk m c t) r y x) (Cell.row (lblk m c t) r y x) (tblk m c t (ix3 r y x))

/-- The same at a natural number, zero past the grid. -/
def bs (c : Dev nD) (n : ℕ) : EReal := if h : n < cfg0.N then bsum m c ⟨n, h⟩ else 0

/-- The sum of the block losses from the first point of n's half up to n. -/
def acc (c : Dev nD) (n : ℕ) : EReal := ∑ j ∈ Finset.range (n % 16 + 1), bs m c (n - n % 16 + j)

theorem acc_first (c : Dev nD) (n : ℕ) (h0 : n % 16 = 0) : acc m c n = bs m c n := by
  unfold acc
  rw [h0, Nat.zero_add, Finset.sum_range_one, Nat.sub_zero, Nat.add_zero]

theorem acc_next (c : Dev nD) (n : ℕ) (h0 : ¬(n + 1) % 16 = 0) : acc m c (n + 1) = acc m c n + bs m c (n + 1) := by
  unfold acc
  have e1 : (n + 1) % 16 = n % 16 + 1 := by omega
  have e2 : n + 1 - (n % 16 + 1) = n - n % 16 := by omega
  have e3 : n - n % 16 + (n % 16 + 1) = n + 1 := by omega
  rw [e1, Finset.sum_range_succ, e2, e3]

/-- The zero the reset stores. -/
theorem pay1_apply (i : S1x1x1.Idx) : k0_pay1 (F := Ideal) i = 0 := by
  unfold k0_pay1
  simp only [broadcast_apply, Ideal.ofBits_def, Ideal.ofBits_zero_f32]

/-- AFTER POINT n the accumulator holds the sum of the block losses of n's half up to n. -/
theorem outsAt_eq (c : Dev nD) : ∀ (n : ℕ) (h : n < cfg0.N) (i : S1x1x1.Idx), outsAt0 m c n h i = acc m c n
  | 0, h, i => by
    rw [outsAt0_A m c ⟨0, h⟩ rfl, out_A, Cell.stored_eq, pay1_apply, zero_add, acc_first m c 0 rfl]
    unfold bs
    rw [dif_pos h]
    rfl
  | n + 1, h, i => by
    by_cases h0 : (n + 1) % 16 = 0
    · rw [outsAt0_A m c ⟨n + 1, h⟩ h0, out_A, Cell.stored_eq, pay1_apply, zero_add, acc_first m c (n + 1) h0]
      unfold bs
      rw [dif_pos h]
      rfl
    · rw [outsAt0_B m c ⟨n + 1, h⟩ h0, out_B, Cell.stored_eq, acc_next m c n h0]
      have ih := outsAt_eq c n (Nat.lt_of_succ_lt h) i
      refine congrArg₂ (· + ·) ih ?_
      unfold bs
      rw [dif_pos h]
      rfl

/-! ## The result array after the last point -/

/-- The result array: entry h holds the sum of half h's sixteen block losses. -/
def result (c : Dev nD) : Buf (Elt Ideal) ((c : Thread nD τ).loc main_v3) :=
  fun j : S2x1x1.Idx => acc m c (16 * (j 0).val + 15)

/-- The output's block index at point t is (t / 16, 0, 0); the inputs' is (t, 0, …): decided over the grid. -/
theorem idx_facts : ∀ t : Fin cfg0.N,
    win0_3.index t (0 : Fin 3) = t.val / 16 ∧ win0_3.index t (1 : Fin 3) = 0 ∧ win0_3.index t (2 : Fin 3) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- What a write-back writes is the result array's block: at the last point of a half the accumulator holds the
    half's whole sum. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  obtain ⟨e0, -⟩ := idx_facts t
  show (cfg0.win 3).cut (grid0.coords t) ((dats m 0 c).after 3 t) = _
  rw [after0_3]
  funext y
  show outsAt0 m c t.val t.isLt y = result m c (((cfg0.win 3).blk t).view.emb y)
  rw [outsAt_eq]
  have hy : (y 0).val < 1 := (y 0).isLt
  have he : ((((cfg0.win 3).blk t).view.emb y) 0).val = t.val / 16 := by
    show win0_3.index t (0 : Fin 3) * 1 + 1 * (y 0).val = t.val / 16
    omega
  show acc m c t.val = acc m c (16 * ((((cfg0.win 3).blk t).view.emb y) 0).val + 15)
  rw [he]
  congr 1
  omega

/-- An index of the result array is in point t's block iff its first coordinate is t / 16. -/
theorem mem_blk (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v3).slice (win0_3.rect t)).set ↔ _
  rw [View.set_slice_whole, Rect.mem_set_unit]
  exact Iff.rfl

/-- So the result array ends holding the two halves' sums. -/
theorem final_o (c : Dev nD) : (dats m 0 c).arrAt 3 cfg0.N = result m c :=
  (dats m 0 c).arrAt_eq_of_cover 3 (result m c) (flushed_eq m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by rw [hN]; omega
    obtain ⟨e0, e1, e2, -⟩ := idx_facts ⟨16 * (i 0).val + 15, ht⟩
    refine ⟨⟨16 * (i 0).val + 15, ht⟩, (flush0_3 _).mpr (by dsimp only; omega), ?_⟩
    rw [mem_blk]
    intro a
    match a with
    | ⟨0, _⟩ =>
      show win0_3.index ⟨16 * (i 0).val + 15, ht⟩ (0 : Fin 3) * 1 ≤ (i 0).val ∧ (i 0).val < win0_3.index ⟨16 * (i 0).val + 15, ht⟩ (0 : Fin 3) * 1 + 1
      rw [e0]; dsimp only; omega
    | ⟨1, _⟩ =>
      show win0_3.index ⟨16 * (i 0).val + 15, ht⟩ (1 : Fin 3) * 1 ≤ (i 1).val ∧ (i 1).val < win0_3.index ⟨16 * (i 0).val + 15, ht⟩ (1 : Fin 3) * 1 + 1
      rw [e1]; omega
    | ⟨2, _⟩ =>
      show win0_3.index ⟨16 * (i 0).val + 15, ht⟩ (2 : Fin 3) * 1 ≤ (i 2).val ∧ (i 2).val < win0_3.index ⟨16 * (i 0).val + 15, ht⟩ (2 : Fin 3) * 1 + 1
      rw [e2]; omega

/-! ## The blocks as parts of the argument arrays -/

/-- The two argument arrays as launched, and the loss of cell (b, y, x) of the whole batch: the label's x-centre is
    read at the transposed cell (b, x, y). -/
abbrev P (c : Dev nD) : FVec Ideal S16384x7x7x30 .f32 := m ((c : Thread nD τ).loc main_arg0)
abbrev L (c : Dev nD) : FVec Ideal S16384x7x7x30 .f32 := m ((c : Thread nD τ).loc main_arg1)
def g (c : Dev nD) (b : Fin 16384) (y x : Fin 7) : EReal :=
  cell (fun ch => P m c (ix4 b y x ch)) (fun ch => L m c (ix4 b y x ch)) (L m c (ix4 b x y 0))

/-- Row r + 512 t of the batch. -/
abbrev brow (t : Fin cfg0.N) (r : Fin 512) : Fin 16384 :=
  ⟨r.val + 512 * t.val, by have := r.isLt; have := lt_of_lt_of_eq t.isLt (show cfg0.N = 32 from N_0); omega⟩

/-- The transposed x-centres the host prepares before the launch: the label's channel 0 with the two grid axes
    swapped. -/
theorem V_lx (c : Dev nD) (b : Fin 16384) (y x : Fin 7) :
    (V m c main_v2 : S16384x7x7.Idx → EReal) (ix3 b y x) = L m c (ix4 b x y 0) := by
  have e : (V m c main_v2 : S16384x7x7.Idx → EReal)
      = transpose S16384x7x7 [0, 2, 1] (shapeCast S16384x7x7
          (extractStridedSlice S16384x7x7x1 ![0, 0, 0, 0] (L m c) slices_S16384x7x7x30_S16384x7x7x1_0_0_0_0)
          shapeCasts_S16384x7x7x1_S16384x7x7) transposes_S16384x7x7_S16384x7x7_0_2_1 := by
    show StableHlo.after hostOps0 (fun b => m (c, b)) (Proc.devRef .tc main_v2) = _
    after_results
    rfl
  rw [e, transpose_ix3_021_apply]
  simp only [shapeCast_abc1_abc_apply, slice4_last_apply]
  rfl

/-- Block t of the predictions is rows 512 t … 512 t + 511 of the batch; likewise the labels and the x-centres. -/
theorem pblk_apply (c : Dev nD) (t : Fin cfg0.N) (r : Fin 512) (y x : Fin 7) (ch : Fin 30) :
    pblk m c t (ix4 r y x ch) = P m c (ix4 (brow t r) y x ch) := by
  obtain ⟨-, -, -, e0, e1, e2, e3, -⟩ := idx_facts t
  show V m c main_arg0 (((cfg0.win 0).blk t).view.emb (ix4 r y x ch)) = _
  rw [V_main_arg0]
  refine congrArg (P m c) (funext fun a => Fin.ext ?_)
  match a with
  | ⟨0, _⟩ => show win0_0.index t (0 : Fin 4) * 512 + 1 * r.val = r.val + 512 * t.val; omega
  | ⟨1, _⟩ => show win0_0.index t (1 : Fin 4) * 7 + 1 * y.val = y.val; omega
  | ⟨2, _⟩ => show win0_0.index t (2 : Fin 4) * 7 + 1 * x.val = x.val; omega
  | ⟨3, _⟩ => show win0_0.index t (3 : Fin 4) * 30 + 1 * ch.val = ch.val; omega

theorem lblk_apply (c : Dev nD) (t : Fin cfg0.N) (r : Fin 512) (y x : Fin 7) (ch : Fin 30) :
    lblk m c t (ix4 r y x ch) = L m c (ix4 (brow t r) y x ch) := by
  obtain ⟨-, -, -, -, -, -, -, e0, e1, e2, e3, -⟩ := idx_facts t
  show V m c main_arg1 (((cfg0.win 1).blk t).view.emb (ix4 r y x ch)) = _
  rw [V_main_arg1]
  refine congrArg (L m c) (funext fun a => Fin.ext ?_)
  match a with
  | ⟨0, _⟩ => show win0_1.index t (0 : Fin 4) * 512 + 1 * r.val = r.val + 512 * t.val; omega
  | ⟨1, _⟩ => show win0_1.index t (1 : Fin 4) * 7 + 1 * y.val = y.val; omega
  | ⟨2, _⟩ => show win0_1.index t (2 : Fin 4) * 7 + 1 * x.val = x.val; omega
  | ⟨3, _⟩ => show win0_1.index t (3 : Fin 4) * 30 + 1 * ch.val = ch.val; omega

theorem tblk_apply (c : Dev nD) (t : Fin cfg0.N) (r : Fin 512) (y x : Fin 7) :
    tblk m c t (ix3 r y x) = L m c (ix4 (brow t r) x y 0) := by
  obtain ⟨-, -, -, -, -, -, -, -, -, -, -, e0, e1, e2⟩ := idx_facts t
  rw [← V_lx m c (brow t r) y x]
  show V m c main_v2 (((cfg0.win 2).blk t).view.emb (ix3 r y x)) = _
  refine congrArg (V m c main_v2) (funext fun a => Fin.ext ?_)
  match a with
  | ⟨0, _⟩ => show win0_2.index t (0 : Fin 3) * 512 + 1 * r.val = r.val + 512 * t.val; omega
  | ⟨1, _⟩ => show win0_2.index t (1 : Fin 3) * 7 + 1 * y.val = y.val; omega
  | ⟨2, _⟩ => show win0_2.index t (2 : Fin 3) * 7 + 1 * x.val = x.val; omega

/-- So the loss of block t is the sum of g over its 512 rows of the batch. -/
theorem bsum_eq (c : Dev nD) (t : Fin cfg0.N) :
    bsum m c t = ∑ r : Fin 512, ∑ y : Fin 7, ∑ x : Fin 7, g m c (brow t r) y x := by
  unfold bsum g
  refine Finset.sum_congr rfl fun r _ => Finset.sum_congr rfl fun y _ => Finset.sum_congr rfl fun x _ => ?_
  rw [tblk_apply]
  refine congrArg₂ (fun p l => cell p l _) (funext fun ch => pblk_apply m c t r y x ch) (funext fun ch => lblk_apply m c t r y x ch)

/-! ## The two halves together are the whole batch -/

theorem total_eq (c : Dev nD) :
    acc m c 15 + acc m c 31 = ∑ b : Fin 16384, ∑ y : Fin 7, ∑ x : Fin 7, g m c b y x := by
  have hN : cfg0.N = 32 := N_0
  have h1 : acc m c 15 + acc m c 31 = ∑ n ∈ Finset.range 32, bs m c n := by
    show _ = ∑ n ∈ Finset.range (16 + 16), bs m c n
    rw [Finset.sum_range_add]
    unfold acc
    show ∑ j ∈ Finset.range 16, bs m c (0 + j) + ∑ j ∈ Finset.range 16, bs m c (16 + j) = _
    simp only [Nat.zero_add]
  rw [h1, Finset.sum_range,
    ← Equiv.sum_comp (finProdFinEquiv : Fin 32 × Fin 512 ≃ Fin 16384) (fun b => ∑ y : Fin 7, ∑ x : Fin 7, g m c b y x),
    Fintype.sum_prod_type]
  refine Finset.sum_congr rfl fun t _ => ?_
  have ht : t.val < cfg0.N := by rw [hN]; exact t.isLt
  unfold bs
  rw [dif_pos ht, bsum_eq]
  rfl

/-! ## The host's last lines: the two entries summed, and the quotient by the number of grids -/

theorem tail_eq (c : Dev nD) :
    Pipeline.afterTail₀ cfgs (dats m) 0 (V0 m) [hostOps1] c main_v5
      = fun _ => Ideal.div (∑ b : Fin 16384, ∑ y : Fin 7, ∑ x : Fin 7, g m c b y x) (Ideal.ofBits .f32 0x46800000#32) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = result m c :=
    (Pipeline.withArrays_arr spec0 launch0.win.arr_inj c _ _ 3).trans (final_o m c)
  rw [hw]
  funext i
  rw [Host_divf_apply]
  refine congrArg₂ Ideal.div ?_ rfl
  simp only [Host.reduceAdd, Ideal.hostReduceAdd_def]
  rw [Ideal.hostReduceAdd_total reducesTo_S2x1x1_S_d0_1_2 (fun b => b.elim0), sum_idx3, Fin.sum_univ_two]
  simp only [Finset.univ_unique, Finset.sum_singleton, constant_apply, Ideal.ofBits_zero_f32, zero_add]
  exact total_eq m c

/-! ## The run -/

/-- Every weakly fair execution of the idealized kernel program ends with the result at the mean, over the 16384
    grids, of the sum of the cells' losses, and the arguments unchanged. -/
theorem run : θ_run defs (onTc (τ := τ) (main (F := Ideal))) ⟨m, fun _ => 0, ρ⟩ fun r => ∀ c : Dev nD,
      r.2.mem ((c : Thread nD τ).loc main_v5)
        = (fun _ => Ideal.div (∑ b : Fin 16384, ∑ y : Fin 7, ∑ x : Fin 7, g m c b y x) (Ideal.ofBits .f32 0x46800000#32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v5 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefCell.lean ====
/-
  The reference program's stages, read at the extended reals at one cell.

  The reference computes, over the whole arrays of predictions x0 and labels x1, both [16384, 7, 7, 30], the loss of
  every cell, sums all of them and divides by the number of grids. Here its stages are read at an index: the
  label's box (whose x-centre is the label's channel 0 at the TRANSPOSED cell), the two intersections over union,
  the two boxes' losses, the class loss, and the loss map as CellLoss.cell of the cell's channels; then the result
  as the quotient of the sum over all cells.
-/
import proofs.«129559_j81767587381937_1_alg».proof.Proof.RefStages
import proofs.«129559_j81767587381937_1_alg».proof.Proof.CellLoss
import Idealize.ShloMosaic.Lib.ValueIdx
import Idealize.ShloMosaic.Lib.ValueLayout

noncomputable section

namespace Cert.ReferenceIdeal.Cell

open Idealize.ShloMosaic Idealize.ShloMosaic.ValueIdx LastAxis CellLoss Cert.ReferenceIdeal Cert.ReferenceIdeal.Stages

/-- The thirty channels of cell (b, y, x) of an array. -/
abbrev row (v : FVec Ideal S16384x7x7x30 .f32) (b : Fin 16384) (y x : Fin 7) : Fin 30 → EReal := fun ch => v (ix4 b y x ch)

variable (x0 x1 : FVec Ideal S16384x7x7x30 .f32)

/-- The stacked label box, channel c of cell (b, y, x): the label's channel 0 at cell (b, x, y), then the cell's
    own channels 1, 2, 3. -/
theorem lbox_at (b : Fin 16384) (y x : Fin 7) (c : Fin 4) :
    val_main_v17 (F := Ideal) x1 (ix4 b y x c) = lbox (row x1 b y x) (x1 (ix4 b x y 0)) c := by
  simp only [val_main_v4, val_main_v5, val_main_v6, val_main_v7, val_main_v8, val_main_v9, val_main_v10, val_main_v11, val_main_v12, val_main_v13, val_main_v14, val_main_v15, val_main_v16, val_main_v17, concatenate_units4_apply]
  rw [broadcastInDim_abc_abc1_apply (by decide) (by decide) (by decide),
    broadcastInDim_abc_abc1_apply (by decide) (by decide) (by decide),
    broadcastInDim_abc_abc1_apply (by decide) (by decide) (by decide),
    broadcastInDim_abc_abc1_apply (by decide) (by decide) (by decide)]
  rw [transpose_ix3_021_apply]
  simp only [shapeCast_abc1_abc_apply, slice4_last_apply]
  rfl

/-- The intersection over union of the first predicted box and the label's box, at cell (b, y, x). -/
theorem iou1_at (b : Fin 16384) (y x : Fin 7) :
    val_main_v62 (F := Ideal) x0 x1 (ix3 b y x)
      = iou (pbox (row x0 b y x) 0 (by decide)) (lbox (row x1 b y x) (x1 (ix4 b x y 0))) := by
  simp only [val_main_v18, val_main_v19, val_main_v20, val_main_cst_0, val_main_v21, val_main_v22, val_main_v23, val_main_v24, val_main_v25, val_main_cst_1, val_main_v26, val_main_v27, val_main_v28, val_main_v29, val_main_v30, val_main_cst_2, val_main_v31, val_main_v32, val_main_v33, val_main_v34, val_main_v35, val_main_cst_3, val_main_v36, val_main_v37, val_main_v38, val_main_v39, val_main_v40, val_main_v41, val_main_cst_4, val_main_call0_v0, val_main_call0_v1, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_5, val_main_v60, val_main_v61, val_main_v62, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def, lbox_at]
  rfl

/-- The same of the second predicted box. -/
theorem iou2_at (b : Fin 16384) (y x : Fin 7) :
    val_main_v107 (F := Ideal) x0 x1 (ix3 b y x)
      = iou (pbox (row x0 b y x) 5 (by decide)) (lbox (row x1 b y x) (x1 (ix4 b x y 0))) := by
  simp only [val_main_v63, val_main_v64, val_main_v65, val_main_cst_6, val_main_v66, val_main_v67, val_main_v68, val_main_v69, val_main_v70, val_main_cst_7, val_main_v71, val_main_v72, val_main_v73, val_main_v74, val_main_v75, val_main_cst_8, val_main_v76, val_main_v77, val_main_v78, val_main_v79, val_main_v80, val_main_cst_9, val_main_v81, val_main_v82, val_main_v83, val_main_v84, val_main_v85, val_main_v86, val_main_cst_10, val_main_call1_v0, val_main_call1_v1, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst_11, val_main_v105, val_main_v106, val_main_v107, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def, lbox_at]
  rfl

/-- The first box's loss when it is responsible, at cell (b, y, x). -/
theorem box1_at (b : Fin 16384) (y x : Fin 7) :
    val_main_v134 (F := Ideal) x0 x1 (ix3 b y x)
      = boxLoss (row x0 b y x) (row x1 b y x) 0 (by decide) (by decide) (val_main_v62 (F := Ideal) x0 x1 (ix3 b y x))
          (x0 (ix4 b y x 4)) (x0 (ix4 b y x 9)) := by
  simp only [val_main_v109, val_main_v110, val_main_v111, val_main_v112, val_main_cst_12, val_main_v113, val_main_cst_13, val_main_v114, val_main_v115, val_main_v116, val_main_v117, val_main_v118, val_main_v119, val_main_v120, val_main_v121, val_main_cst_14, val_main_v122, val_main_v123, val_main_v124, val_main_v125, val_main_v126, val_main_v127, val_main_v128, val_main_v129, val_main_v130, val_main_v131, val_main_cst_15, val_main_v132, val_main_v133, val_main_v134, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def]
  rw [Host_reduceAdd_last4_apply, Host_reduceAdd_last4_apply]
  simp only [Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def, Ideal.ofBits_zero_f32, zero_add]
  rfl

/-- The second box's. -/
theorem box2_at (b : Fin 16384) (y x : Fin 7) :
    val_main_v160 (F := Ideal) x0 x1 (ix3 b y x)
      = boxLoss (row x0 b y x) (row x1 b y x) 5 (by decide) (by decide) (val_main_v107 (F := Ideal) x0 x1 (ix3 b y x))
          (x0 (ix4 b y x 9)) (x0 (ix4 b y x 4)) := by
  simp only [val_main_v135, val_main_v136, val_main_v137, val_main_v138, val_main_cst_16, val_main_v139, val_main_cst_17, val_main_v140, val_main_v141, val_main_v142, val_main_v143, val_main_v144, val_main_v145, val_main_v146, val_main_v147, val_main_cst_18, val_main_v148, val_main_v149, val_main_v150, val_main_v151, val_main_v152, val_main_v153, val_main_v154, val_main_v155, val_main_v156, val_main_v157, val_main_cst_19, val_main_v158, val_main_v159, val_main_v160, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def]
  rw [Host_reduceAdd_last4_apply, Host_reduceAdd_last4_apply]
  simp only [Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def, Ideal.ofBits_zero_f32, zero_add]
  rfl

/-- The class loss, at cell (b, y, x). -/
theorem cls_at (b : Fin 16384) (y x : Fin 7) :
    val_main_v165 (F := Ideal) x0 x1 (ix3 b y x) = clsLoss (row x0 b y x) (row x1 b y x) := by
  simp only [val_main_v161, val_main_v162, val_main_v163, val_main_v164, val_main_cst_20, val_main_v165, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def]
  rw [Host_reduceAdd_last4_apply]
  simp only [Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def, Ideal.ofBits_zero_f32, zero_add]
  rfl

/-- THE LOSS MAP at cell (b, y, x) is the cell's loss. -/
theorem cell_at (b : Fin 16384) (y x : Fin 7) :
    val_main_v177 (F := Ideal) x0 x1 (ix3 b y x) = cell (row x0 b y x) (row x1 b y x) (x1 (ix4 b x y 0)) := by
  simp only [val_main_v0, val_main_v1, val_main_cst, val_main_v2, val_main_v3, val_main_v108, val_main_v166, val_main_v167, val_main_v168, val_main_v169, val_main_v170, val_main_v171, val_main_v172, val_main_v173, val_main_v174, val_main_cst_21, val_main_v175, val_main_v176, val_main_v177, Host_divf_apply, Host_sqrt_apply, mulf_apply, addf_apply, subf_apply, maximumf_apply, minimumf_apply, cmpf_apply, select_apply, constant_apply, broadcastInDim_scalar_apply, shapeCast_abc1_abc_apply, slice4_last_apply, concatenate_units4_apply, id_eq, Ideal.ofBits_def,
    iou1_at, iou2_at, box1_at, box2_at, cls_at]
  rfl

/-- THE RESULT: the sum of every cell's loss over the 16384 grids, divided by the word 16384.0. -/
theorem result_eq (i : S_.Idx) :
    val_main_v179 (F := Ideal) x0 x1 i
      = Ideal.div (∑ b : Fin 16384, ∑ y : Fin 7, ∑ x : Fin 7, cell (row x0 b y x) (row x1 b y x) (x1 (ix4 b x y 0)))
          (Ideal.ofBits .f32 0x46800000#32) := by
  simp only [val_main_v179, val_main_cst_23, Host_divf_apply, constant_apply]
  rw [val_main_v178_apply]
  simp only [val_main_cst_22, constant_apply, Ideal.ofBits_zero_f32, zero_add]
  rw [sum_idx3]
  simp only [cell_at]

end Cert.ReferenceIdeal.Cell

end
-- ==== Proof.RefRun.lean ====
import proofs.«129559_j81767587381937_1_alg».proof.Proof.Gen.ReferenceIdeal
import proofs.«129559_j81767587381937_1_alg».proof.Proof.RefStages
import proofs.«129559_j81767587381937_1_alg».proof.Proof.RefOps
import Idealize.ShloMosaic.Lib.StableHlo.Run
import Idealize.ShloMosaic.Lib.Pipeline.Frame

/-!
# The reference program's run, stated over its stages

The reference's @main is a straight line of 209 host operations. `RefOps` cuts that line into eight lists
`ops0`, `opsC`, `ops1 … ops6` (`opsC` is the four-piece concatenate alone). Between two consecutive lists only a few buffers are still read later (besides the two
arguments, which no operation writes). For each cut `AtK V x0 x1` says that the valuation `V` holds, at each of
those buffers, the stage value `val_<buffer>` of the arguments `x0 x1`, and holds the arguments themselves at
the argument buffers. Each list carries the fact at its head to the fact at its end (`chunkK`): the fold
`after opsK V` is read at each buffer that stays live — an operation's result at its own buffer is its function
of the operands' contents, any other buffer is unchanged — the contents at the list's head are replaced by
the stage values the hypothesis gives, and what is left is the stage's own definition, one operation at a time.
Composing the eight steps from the launch contents gives the result buffer at `val_main_v179` of the launch
arguments, and `run_seq` turns the fold into the statement about every weakly fair execution.
-/

noncomputable section

namespace Cert.ReferenceIdeal.RefRun

open Cert.ReferenceIdeal Cert.ReferenceIdeal.Gen Cert.ReferenceIdeal.Stages Cert.ReferenceIdeal.RefOps
open Idealize.ShloMosaic Idealize.ShloMosaic.TcCoe Idealize.SL.Sem Idealize.ShloMosaic.StableHlo

variable {F : FTy → Type} [FloatOps F]

/-! ## What a valuation holds at each cut -/

/-- At the launch: the two arguments. -/
structure At0 (V : Valuation τ sig (Elt F)) (x0 x1 : (⟨S16384x7x7x30, .f32⟩ : BufTy).Contents (Elt F)) : Prop where
  a0 : V (Proc.devRef .tc main_arg0) = x0
  a1 : V (Proc.devRef .tc main_arg1) = x1

/-- After operations 0 … 17: the comparison `main_v3` and the four pieces `main_v13 … main_v16` of the concatenate, all of the
    second argument. -/
structure AtC (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v13 : V (Proc.devRef .tc main_v13) = val_main_v13 (F := F) x1
  v14 : V (Proc.devRef .tc main_v14) = val_main_v14 (F := F) x1
  v15 : V (Proc.devRef .tc main_v15) = val_main_v15 (F := F) x1
  v16 : V (Proc.devRef .tc main_v16) = val_main_v16 (F := F) x1

/-- After operations 0 … 18: the comparison `main_v3` and the four-piece concatenate `main_v17`, both of the second argument. -/
structure At1 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v17 : V (Proc.devRef .tc main_v17) = val_main_v17 (F := F) x1

/-- After operations 0 … 61: the products `main_v47` and `main_v52` and the slice `main_v53` of the concatenate besides. -/
structure At2 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v17 : V (Proc.devRef .tc main_v17) = val_main_v17 (F := F) x1
  v47 : V (Proc.devRef .tc main_v47) = val_main_v47 (F := F) x0 x1
  v52 : V (Proc.devRef .tc main_v52) = val_main_v52 (F := F) x0
  v53 : V (Proc.devRef .tc main_v53) = val_main_v53 (F := F) x1

/-- After operations 0 … 71: the quotient `main_v62` in place of the three. -/
structure At3 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v17 : V (Proc.devRef .tc main_v17) = val_main_v17 (F := F) x1
  v62 : V (Proc.devRef .tc main_v62) = val_main_v62 (F := F) x0 x1

/-- After operations 0 … 123: the product `main_v92` and the sum `main_v106`, numerator and denominator of the second quotient. -/
structure At4 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v62 : V (Proc.devRef .tc main_v62) = val_main_v62 (F := F) x0 x1
  v92 : V (Proc.devRef .tc main_v92) = val_main_v92 (F := F) x0 x1
  v106 : V (Proc.devRef .tc main_v106) = val_main_v106 (F := F) x0 x1

/-- After operations 0 … 155: the second quotient `main_v107`, the comparison `main_v108` of the two quotients and the
    sum `main_v134`. -/
structure At5 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v107 : V (Proc.devRef .tc main_v107) = val_main_v107 (F := F) x0 x1
  v108 : V (Proc.devRef .tc main_v108) = val_main_v108 (F := F) x0 x1
  v134 : V (Proc.devRef .tc main_v134) = val_main_v134 (F := F) x0 x1

/-- After operations 0 … 183: the sum `main_v154`, the square `main_v157` and the broadcast constant `main_v158`. -/
structure At6 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v3 : V (Proc.devRef .tc main_v3) = val_main_v3 (F := F) x1
  v108 : V (Proc.devRef .tc main_v108) = val_main_v108 (F := F) x0 x1
  v134 : V (Proc.devRef .tc main_v134) = val_main_v134 (F := F) x0 x1
  v154 : V (Proc.devRef .tc main_v154) = val_main_v154 (F := F) x0 x1
  v157 : V (Proc.devRef .tc main_v157) = val_main_v157 (F := F) x0
  v158 : V (Proc.devRef .tc main_v158) = val_main_v158 (F := F)

/-- After all 209 operations: the result `main_v179`. -/
structure At7 (V : Valuation τ sig (Elt F)) (x0 x1 : (⟨S16384x7x7x30, .f32⟩ : BufTy).Contents (Elt F)) : Prop where
  a0 : V (Proc.devRef .tc main_arg0) = x0
  a1 : V (Proc.devRef .tc main_arg1) = x1
  v179 : V (Proc.devRef .tc main_v179) = val_main_v179 (F := F) x0 x1

/-! ## Each list carries one cut's fact to the next -/

/-- Operations 0 … 17 read the second argument only. -/
theorem chunk0 (V : Valuation τ sig (Elt F)) (x0 x1 : (⟨S16384x7x7x30, .f32⟩ : BufTy).Contents (Elt F)) (h : At0 V x0 x1) : AtC (after ops0 V) x0 x1 where
  a0 := by after_results_simp; exact h.a0
  a1 := by after_results_simp; exact h.a1
  v3 := by after_results_simp; simp only [h.a1]; rfl
  v13 := by after_results_simp; simp only [h.a1]; rfl
  v14 := by after_results_simp; simp only [h.a1]; rfl
  v15 := by after_results_simp; simp only [h.a1]; rfl
  v16 := by after_results_simp; simp only [h.a1]; rfl

/-- Operation 18, the four-piece concatenate: its result is the concatenate of its four operands' contents, each read at
    its own buffer, and those are the four stages the hypothesis gives. -/
theorem chunkC (V : Valuation τ sig (Elt F)) (x0 x1 : (⟨S16384x7x7x30, .f32⟩ : BufTy).Contents (Elt F)) (h : AtC V x0 x1) : At1 (after opsC V) x0 x1 where
  a0 := by after_results_simp; exact h.a0
  a1 := by after_results_simp; exact h.a1
  v3 := by after_results_simp; exact h.v3
  v17 := by
    have e : after opsC V (Proc.devRef .tc main_v17)
        = concatenate S16384x7x7x4 3 [⟨S16384x7x7x1, V (Proc.devRef .tc main_v13)⟩, ⟨S16384x7x7x1, V (Proc.devRef .tc main_v14)⟩,
            ⟨S16384x7x7x1, V (Proc.devRef .tc main_v15)⟩, ⟨S16384x7x7x1, V (Proc.devRef .tc main_v16)⟩]
            concatenates_S16384x7x7x1_S16384x7x7x1_S16384x7x7x1_S16384x7x7x1_S16384x7x7x4_d3 := by
      after_results_simp
      rfl
    rw [e, h.v13, h.v14, h.v15, h.v16]
    rfl

set_option maxHeartbeats 4000000 in
theorem chunk1 (V : Valuation τ sig (Elt F)) (x0 x1 : (⟨S16384x7x7x30, .f32⟩ : BufTy).Contents (Elt F)) (h : At1 V x0 x1) : At2 (after ops1 V) x0 x1 where
  a0 := by after_results_simp; exact h.a0
  a1 := by after_results_simp; exact h.a1
  v3 := by after_results_simp; exact h.v3
  v17 := by after_results_simp; exact h.v17
  v47 := by after_results_simp; simp only [h.a0, h.v17]; rfl
  v52 := by after_results_simp; simp only [h.a0]; rfl
  v53 := by after_results_simp; simp only [h.v17]; rfl

set_option maxHeartbeats 4000000 in
theorem chunk2 (V : Valuation τ sig (Elt F)) (x0 x1 : (⟨S16384x7x7x30, .f32⟩ : BufTy).Contents (Elt F)) (h : At2 V x0 x1) : At3 (after ops2 V) x0 x1 where
  a0 := by after_results_simp; exact h.a0
  a1 := by after_results_simp; exact h.a1
  v3 := by after_results_simp; exact h.v3
  v17 := by after_results_simp; exact h.v17
  v62 := by after_results_simp; simp only [h.v17, h.v47, h.v52, h.v53]; rfl

set_option maxHeartbeats 4000000 in
theorem chunk3 (V : Valuation τ sig (Elt F)) (x0 x1 : (⟨S16384x7x7x30, .f32⟩ : BufTy).Contents (Elt F)) (h : At3 V x0 x1) : At4 (after ops3 V) x0 x1 where
  a0 := by after_results_simp; exact h.a0
  a1 := by after_results_simp; exact h.a1
  v3 := by after_results_simp; exact h.v3
  v62 := by after_results_simp; exact h.v62
  v92 := by after_results_simp; simp only [h.a0, h.v17]; rfl
  v106 := by after_results_simp; simp only [h.a0, h.v17]; rfl

set_option maxHeartbeats 4000000 in
theorem chunk4 (V : Valuation τ sig (Elt F)) (x0 x1 : (⟨S16384x7x7x30, .f32⟩ : BufTy).Contents (Elt F)) (h : At4 V x0 x1) : At5 (after ops4 V) x0 x1 where
  a0 := by after_results_simp; exact h.a0
  a1 := by after_results_simp; exact h.a1
  v3 := by after_results_simp; exact h.v3
  v107 := by after_results_simp; simp only [h.v92, h.v106]; rfl
  v108 := by after_results_simp; simp only [h.v62, h.v92, h.v106]; rfl
  v134 := by after_results_simp; simp only [h.a0, h.a1, h.v62]; rfl

set_option maxHeartbeats 4000000 in
theorem chunk5 (V : Valuation τ sig (Elt F)) (x0 x1 : (⟨S16384x7x7x30, .f32⟩ : BufTy).Contents (Elt F)) (h : At5 V x0 x1) : At6 (after ops5 V) x0 x1 where
  a0 := by after_results_simp; exact h.a0
  a1 := by after_results_simp; exact h.a1
  v3 := by after_results_simp; exact h.v3
  v108 := by after_results_simp; exact h.v108
  v134 := by after_results_simp; exact h.v134
  v154 := by after_results_simp; simp only [h.a0, h.a1, h.v107]; rfl
  v157 := by after_results_simp; simp only [h.a0]; rfl
  v158 := by after_results_simp; rfl

set_option maxHeartbeats 4000000 in
theorem chunk6 (V : Valuation τ sig (Elt F)) (x0 x1 : (⟨S16384x7x7x30, .f32⟩ : BufTy).Contents (Elt F)) (h : At6 V x0 x1) : At7 (after ops6 V) x0 x1 where
  a0 := by after_results_simp; exact h.a0
  a1 := by after_results_simp; exact h.a1
  v179 := by
    after_results_simp
    simp only [h.a0, h.a1, h.v3, h.v108, h.v134, h.v154, h.v157, h.v158]
    rfl

/-! ## The whole line -/

/-- The fold over all 209 operations is the eight folds in order. -/
theorem after_opsAll (V : Valuation τ sig (Elt F)) :
    after opsAll V = after ops6 (after ops5 (after ops4 (after ops3 (after ops2 (after ops1 (after opsC (after ops0 V))))))) := by
  show after (((ops0 ++ opsC) ++ ops1) ++ ((ops2 ++ ops3) ++ ((ops4 ++ ops5) ++ ops6))) V = _
  rw [after_append ((ops0 ++ opsC) ++ ops1) _ V, after_append (ops0 ++ opsC) ops1 V, after_append ops0 opsC V, after_append (ops2 ++ ops3) _ _, after_append ops2 ops3 _,
    after_append (ops4 ++ ops5) ops6 _, after_append ops4 ops5 _]

/-- From any valuation holding the arguments, the whole line ends with the result buffer at the last stage. -/
theorem after_all (V : Valuation τ sig (Elt F)) (x0 x1 : (⟨S16384x7x7x30, .f32⟩ : BufTy).Contents (Elt F)) (h : At0 V x0 x1) : At7 (after opsAll V) x0 x1 := by
  rw [after_opsAll]
  exact chunk6 _ x0 x1 (chunk5 _ x0 x1 (chunk4 _ x0 x1 (chunk3 _ x0 x1 (chunk2 _ x0 x1 (chunk1 _ x0 x1 (chunkC _ x0 x1 (chunk0 V x0 x1 h)))))))

/-- On every device, for any float values, from any memory with zero counters: every weakly fair execution of
    @main terminates with the result buffer at the last stage's value of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179) = Cert.ReferenceIdeal.Stages.val_main_v179 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have e := after_all (launchContents m c) (m ((c.tc : Thread nD τ).loc main_arg0)) (m ((c.tc : Thread nD τ).loc main_arg1)) ⟨rfl, rfl⟩
      ⟨(h c main_v179).trans e.v179, (h c main_arg0).trans e.a0, (h c main_arg1).trans e.a1⟩)
    (run_seq scopedRefs_eq scopedSems_eq defs main (fun _ => opsAll) main_eq (fun _ => opsAll_sub) m ρ (hfresh := fun _ => opsAll_fresh))

end Cert.ReferenceIdeal.RefRun

end
-- ==== Proof.lean ====
/-
  The certificate of a detection loss over 16384 grids of 7 × 7 cells with 30 channels a cell.

  Both programs compute, for every cell, the same loss of the cell's predicted and label channels and of the label's
  x-centre read at the transposed cell (CellLoss.cell: two intersections over union against the label's box, the loss
  of the responsible box, the class loss, or half the squared confidences where the cell holds no object), sum the
  losses over all cells and divide by the number of grids. The kernel does it block by block: 2 × 16 grid points of
  512 grids each, the sixteen blocks of a half accumulated into one entry of a two-entry result, the two entries
  summed by the host; the reference sums all 16384 × 7 × 7 cells at once. At the extended reals the two are the same
  sum, since addition there is commutative and associative; the proof never opens the precondition.

  KernelCell reads the kernel's body at a cell and as a sum over a block, KernelRun the accumulation over the grid,
  the write-back and the host's last lines; RefCell reads the reference's stages at a cell and its result; RefRun
  is the reference's run over those stages. The ideal pass rewrote nothing, so the idealization claim is trivial.
-/
import proofs.«129559_j81767587381937_1_alg».proof.Defs
import proofs.«129559_j81767587381937_1_alg».proof.Proof.Gen.Kernel
import proofs.«129559_j81767587381937_1_alg».proof.Proof.Gen.Kernel.Frame
import proofs.«129559_j81767587381937_1_alg».proof.Proof.Gen.KernelIdeal
import proofs.«129559_j81767587381937_1_alg».proof.Proof.Gen.KernelIdeal.Frame
import proofs.«129559_j81767587381937_1_alg».proof.Proof.Gen.ReferenceIdeal
import proofs.«129559_j81767587381937_1_alg».proof.Proof.Gen.Pre_finite_inputs
import proofs.«129559_j81767587381937_1_alg».proof.Proof.KernelRun
import proofs.«129559_j81767587381937_1_alg».proof.Proof.RefCell
import proofs.«129559_j81767587381937_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- At the extended reals both programs end at the sum, over every cell of the 16384 grids, of the cell's loss,
    divided by the word 16384.0: the kernel adds the cells block by block and half by half, the reference all at
    once, and a sum of extended reals does not depend on the grouping. No finiteness of the inputs is used. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩) (Cert.ReferenceIdeal.RefRun.run (F := Ideal) m' ρ')
  funext i
  rw [(hagree c).1, (hagree c).2]
  exact Cert.ReferenceIdeal.Cell.result_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
